-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S50000 : Shape := ⟨1, ![50000]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1650000x128 : Shape := ⟨2, ![1650000, 128]⟩
abbrev S1x128 : Shape := ⟨2, ![1, 128]⟩

abbrev nBuf : Space → Nat
  | .hbm => 87
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S50000, .i32⟩
  | .hbm, ⟨8, _⟩ => ⟨S1x1600000, .i32⟩
  | .hbm, ⟨9, _⟩ => ⟨S1600000, .i32⟩
  | .hbm, ⟨10, _⟩ => ⟨S1650000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S_, .f32⟩
  | .hbm, ⟨15, _⟩ => ⟨S50000, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S50000x128, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x128, .f32⟩
  | .hbm, ⟨59, _⟩ => ⟨S1650000x1, .f32⟩
  | .hbm, ⟨60, _⟩ => ⟨S1650000x128, .f32⟩
  | .hbm, ⟨61, _⟩ => ⟨S1650000x128, .f32⟩
  | .hbm, ⟨62, _⟩ => ⟨S_, .f32⟩
  | .hbm, ⟨63, _⟩ => ⟨S50000x128, .f32⟩
  | .hbm, ⟨64, _⟩ => ⟨S1650000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S1650000, .i32⟩
  | .hbm, ⟨71, _⟩ => ⟨S1650000, .i1⟩
  | .hbm, ⟨72, _⟩ => ⟨S_, .i32⟩
  | .hbm, ⟨73, _⟩ => ⟨S1650000, .i32⟩
  | .hbm, ⟨74, _⟩ => ⟨S1650000, .i32⟩
  | .hbm, ⟨75, _⟩ => ⟨S1650000, .i32⟩
  | .hbm, ⟨76, _⟩ => ⟨S1650000x1, .i32⟩
  | .hbm, ⟨77, _⟩ => ⟨S1650000x128, .f32⟩
  | .hbm, ⟨78, _⟩ => ⟨S1650000x1, .f32⟩
  | .hbm, ⟨79, _⟩ => ⟨S1650000x128, .f32⟩
  | .hbm, ⟨80, _⟩ => ⟨S1650000x128, .f32⟩
  | .hbm, ⟨81, _⟩ => ⟨S_, .f32⟩
  | .hbm, ⟨82, _⟩ => ⟨S50000x128, .f32⟩
  | .hbm, ⟨83, _⟩ => ⟨S1650000x1, .i32⟩
  | .hbm, ⟨84, _⟩ => ⟨S50000x128, .f32⟩
  | .hbm, ⟨85, _⟩ => ⟨S1x128, .f32⟩
  | .hbm, ⟨86, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S50000 : Shape := ⟨1, ![50000]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩

abbrev nBuf : Space → Nat
  | .hbm => 124
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S50000, .i32⟩
  | .hbm, ⟨8, _⟩ => ⟨S1x1600000, .i32⟩
  | .hbm, ⟨9, _⟩ => ⟨S1600000, .i32⟩
  | .hbm, ⟨10, _⟩ => ⟨S1650000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S_, .f32⟩
  | .hbm, ⟨15, _⟩ => ⟨S50000, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S50000x128, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x128, .f32⟩
  | .hbm, ⟨59, _⟩ => ⟨S1650000x1, .f32⟩
  | .hbm, ⟨60, _⟩ => ⟨S1650000x128, .f32⟩
  | .hbm, ⟨61, _⟩ => ⟨S1650000x128, .f32⟩
  | .hbm, ⟨62, _⟩ => ⟨S_, .f32⟩
  | .hbm, ⟨63, _⟩ => ⟨S50000x128, .f32⟩
  | .hbm, ⟨64, _⟩ => ⟨S1650000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000, .f32⟩
  | .hbm, ⟨74, _⟩ => ⟨S1650000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S1650000, .i32⟩
  | .hbm, ⟨86, _⟩ => ⟨S1650000, .i1⟩
  | .hbm, ⟨87, _⟩ => ⟨S_, .i32⟩
  | .hbm, ⟨88, _⟩ => ⟨S1650000, .i32⟩
  | .hbm, ⟨89, _⟩ => ⟨S1650000, .i32⟩
  | .hbm, ⟨90, _⟩ => ⟨S1650000, .i32⟩
  | .hbm, ⟨91, _⟩ => ⟨S1650000x1, .i32⟩
  | .hbm, ⟨92, _⟩ => ⟨S1650000, .f32⟩
  | .hbm, ⟨93, _⟩ => ⟨S1650000, .f32⟩
  | .hbm, ⟨94, _⟩ => ⟨S_, .i32⟩
  | .hbm, ⟨95, _⟩ => ⟨S1650000, .i32⟩
  | .hbm, ⟨96, _⟩ => ⟨S1650000, .i1⟩
  | .hbm, ⟨97, _⟩ => ⟨S_, .i32⟩
  | .hbm, ⟨98, _⟩ => ⟨S1650000, .i32⟩
  | .hbm, ⟨99, _⟩ => ⟨S1650000, .i32⟩
  | .hbm, ⟨100, _⟩ => ⟨S1650000, .i32⟩
  | .hbm, ⟨101, _⟩ => ⟨S1650000x1, .i32⟩
  | .hbm, ⟨102, _⟩ => ⟨S1650000, .f32⟩
  | .hbm, ⟨103, _⟩ => ⟨S1650000, .f32⟩
  | .hbm, ⟨104, _⟩ => ⟨S50000x128, .f32⟩
  | .hbm, ⟨105, _⟩ => ⟨S_, .i32⟩
  | .hbm, ⟨106, _⟩ => ⟨S1650000, .i32⟩
  | .hbm, ⟨107, _⟩ => ⟨S1650000, .i1⟩
  | .hbm, ⟨108, _⟩ => ⟨S_, .i32⟩
  | .hbm, ⟨109, _⟩ => ⟨S1650000, .i32⟩
  | .hbm, ⟨110, _⟩ => ⟨S1650000, .i32⟩
  | .hbm, ⟨111, _⟩ => ⟨S1650000, .i32⟩
  | .hbm, ⟨112, _⟩ => ⟨S1650000x1, .i32⟩
  | .hbm, ⟨113, _⟩ => ⟨S1650000x128, .f32⟩
  | .hbm, ⟨114, _⟩ => ⟨S1650000x1, .f32⟩
  | .hbm, ⟨115, _⟩ => ⟨S1650000x128, .f32⟩
  | .hbm, ⟨116, _⟩ => ⟨S1650000x128, .f32⟩
  | .hbm, ⟨117, _⟩ => ⟨S_, .f32⟩
  | .hbm, ⟨118, _⟩ => ⟨S50000x128, .f32⟩
  | .hbm, ⟨119, _⟩ => ⟨S1650000x1, .i32⟩
  | .hbm, ⟨120, _⟩ => ⟨S50000x128, .f32⟩
  | .hbm, ⟨121, _⟩ => ⟨S1x128, .f32⟩
  | .hbm, ⟨122, _⟩ => ⟨S50000x128, .f32⟩
  | .hbm, ⟨123, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_c_17 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

class Facts : Prop extends Facts₀ where

variable [Facts]
-- ==== Proof.Spec.lean ====
/-
  A two-layer graph convolution, as ONE function of its seven arguments.

  The graph has 50000 nodes and 1600000 weighted edges; every node also gets a self loop of weight 1, so the edge
  lists have 1650000 entries: `srcs` (row 0 of the edge table, then 0 … 49999), `dsts` (row 1, then 0 … 49999) and
  `wts` (the edge weights, then ones). A negative endpoint is wrapped once by the number of nodes (`wrap`).
  The degree of a node is the sum of the weights of the edges that END in it (`deg`: an accumulating scatter), its
  inverse square root where the degree is positive and zero elsewhere is `dis`, and the symmetric normalisation of an
  edge is `dis(src) · weight · dis(dst)` (`norm`).
  One layer sends a node table `h` (50000 × 128) to the table whose row `v` is the sum, over the edges ending in
  `v`, of the source's row of `h` scaled by the edge's normalisation (`agg`: gather, scale, accumulating scatter),
  after a dense product with the layer's weights (`dense`) and before its bias row is added (`row`, `addRow`); the first
  layer is followed by `max(·, 0)` (`relu`). `gcn` composes the two layers over ONE normalisation.

  Everything here is stated for any float instance; nothing is opened: the two programs are compared through these
  names, and only the dense product, the bias and the maximum are ever read at an index.
-/
import proofs.«168473_j83494164234348_1_alg».proof.Proof.Gen.ReferenceIdeal

noncomputable section

namespace Cert.Gcn

open Idealize.ShloMosaic Cert.ReferenceIdeal Cert.ReferenceIdeal.Gen

variable {F : FTy → Type} [FloatOps F]

/-- The edge table: 2 rows of 1600000 node numbers. -/
abbrev EdgeTable (F : FTy → Type) := (⟨S2x1600000, .i32⟩ : BufTy).Contents (Elt F)
/-- One endpoint list with the self loops appended. -/
abbrev Ends (F : FTy → Type) := (⟨S1650000, .i32⟩ : BufTy).Contents (Elt F)
/-- One number per edge (self loops included). -/
abbrev PerEdge (F : FTy → Type) := (⟨S1650000, .f32⟩ : BufTy).Contents (Elt F)
/-- One number per node. -/
abbrev PerNode (F : FTy → Type) := (⟨S50000, .f32⟩ : BufTy).Contents (Elt F)
/-- A table of 128 features per node. -/
abbrev Nodes (F : FTy → Type) := (⟨S50000x128, .f32⟩ : BufTy).Contents (Elt F)
/-- A 128 × 128 weight matrix. -/
abbrev Weights (F : FTy → Type) := (⟨S128x128, .f32⟩ : BufTy).Contents (Elt F)
/-- A bias of 128 features. -/
abbrev Bias (F : FTy → Type) := (⟨S128, .f32⟩ : BufTy).Contents (Elt F)

/-- Sources: row 0 of the edge table, then the self loops' 0 … 49999. -/
def srcs (ei : EdgeTable F) : Ends F :=
  concatenate S1650000 0 [⟨S1600000, (shapeCast S1600000 (extractStridedSlice S1x1600000 ![0, 0] ei slices_S2x1600000_S1x1600000_0_0) shapeCasts_S1x1600000_S1600000)⟩, ⟨S50000, (iotaInDim S50000 32 0)⟩] concatenates_S1600000_S50000_S1650000_d0

/-- Targets: row 1 of the edge table, then the self loops' 0 … 49999. -/
def dsts (ei : EdgeTable F) : Ends F :=
  concatenate S1650000 0 [⟨S1600000, (shapeCast S1600000 (extractStridedSlice S1x1600000 ![1, 0] ei slices_S2x1600000_S1x1600000_1_0) shapeCasts_S1x1600000_S1600000)⟩, ⟨S50000, (iotaInDim S50000 32 0)⟩] concatenates_S1600000_S50000_S1650000_d0

/-- Weights: the edge weights, then a one per self loop. -/
def wts (ew : (⟨S1600000, .f32⟩ : BufTy).Contents (Elt F)) : PerEdge F :=
  concatenate S1650000 0 [⟨S1600000, ew⟩, ⟨S50000, (broadcastInDim S50000 ![] bcast_S_S50000 (constant S_ .f32 0x3F800000#32))⟩] concatenates_S1600000_S50000_S1650000_d0

/-- A negative node number counts from the end: 50000 is added to it once. -/
def wrap (idx : Ends F) : Ends F :=
  select (cmpi .slt idx (broadcastInDim S1650000 ![] bcast_S_S1650000 (constantI S_ 32 0#32))) (addi idx (broadcastInDim S1650000 ![] bcast_S_S1650000 (constantI S_ 32 50000#32))) idx

/-- A node's degree: the sum of the weights of the edges ending in it. -/
def deg (d : Ends F) (w : PerEdge F) : PerNode F :=
  Host.scatterAdd scatter_S50000_S1650000x1_S1650000_n_0_0_1 (broadcastInDim S50000 ![] bcast_S_S50000 (constant S_ .f32 0x00000000#32)) (broadcastInDim S1650000x1 ![0] bcast_S1650000_S1650000x1_0 d) w

/-- The inverse square root of a positive degree, zero elsewhere. -/
def dis (g : PerNode F) : PerNode F :=
  select (cmpf .ogt g (broadcastInDim S50000 ![] bcast_S_S50000 (constant S_ .f32 0x00000000#32))) (Host.rsqrt g) (broadcastInDim S50000 ![] bcast_S_S50000 (id (constant S_ .f32 0x00000000#32)))

/-- An edge's symmetric normalisation `dis(src) · weight · dis(dst)`. -/
def norm (s d : Ends F) (w : PerEdge F) : PerEdge F :=
  mulf (mulf (Host.gather gather_S50000_S1650000x1_S1650000_n_0_n_n_0_1_1 (dis (deg d w)) (broadcastInDim S1650000x1 ![0] bcast_S1650000_S1650000x1_0 (wrap s))) w) (Host.gather gather_S50000_S1650000x1_S1650000_n_0_n_n_0_1_1 (dis (deg d w)) (broadcastInDim S1650000x1 ![0] bcast_S1650000_S1650000x1_0 (wrap d)))

/-- Message passing: row `v` of the result is the sum over the edges ending in `v` of the source's row of `h`
    times the edge's normalisation. -/
def agg (h : Nodes F) (s d : Ends F) (nrm : PerEdge F) : Nodes F :=
  Host.scatterAdd scatter_S50000x128_S1650000x1_S1650000x128_1_0_0_1 (broadcastInDim S50000x128 ![] bcast_S_S50000x128 (constant S_ .f32 0x00000000#32)) (broadcastInDim S1650000x1 ![0] bcast_S1650000_S1650000x1_0 d) (mulf (Host.gather gather_S50000x128_S1650000x1_S1650000x128_1_0_n_n_0_1_1128 h (broadcastInDim S1650000x1 ![0] bcast_S1650000_S1650000x1_0 (wrap s))) (broadcastInDim S1650000x128 ![0, 1] bcast_S1650000x1_S1650000x128_0_1 (broadcastInDim S1650000x1 ![0] bcast_S1650000_S1650000x1_0 nrm)))

/-- The dense product of a node table with a weight matrix. -/
def dense (x : Nodes F) (w : Weights F) : Nodes F :=
  Host.dotGeneral dot_S50000x128_S128x128_S50000x128_1_0_0_1_n_n none x w

/-- One row of 128 features repeated for every node. -/
def spread (r : (⟨S1x128, .f32⟩ : BufTy).Contents (Elt F)) : Nodes F :=
  broadcastInDim S50000x128 ![0, 1] bcast_S1x128_S50000x128_0_1 r

/-- A bias laid out as one row of 128 features. -/
def row (b : Bias F) : (⟨S1x128, .f32⟩ : BufTy).Contents (Elt F) :=
  broadcastInDim S1x128 ![1] bcast_S128_S1x128_1 b

/-- A node table with one row of 128 features added to every node's row. -/
def addRow (x : Nodes F) (r : (⟨S1x128, .f32⟩ : BufTy).Contents (Elt F)) : Nodes F :=
  addf x (spread r)

/-- The positive part, entry by entry. -/
def relu (y : Nodes F) : Nodes F :=
  maximumf y (broadcastInDim S50000x128 ![] bcast_S_S50000x128 (constant S_ .f32 0x00000000#32))

/-- The two layers over one normalisation. -/
def gcn (x : Nodes F) (ei : EdgeTable F) (ew : (⟨S1600000, .f32⟩ : BufTy).Contents (Elt F)) (W1 : Weights F) (b1 : Bias F) (W2 : Weights F) (b2 : Bias F) : Nodes F :=
  addRow (agg (dense (relu (addRow (agg (dense x W1) (srcs ei) (dsts ei) (norm (srcs ei) (dsts ei) (wts ew))) (row b1))) W2) (srcs ei) (dsts ei) (norm (srcs ei) (dsts ei) (wts ew))) (row b2)

end Cert.Gcn

end
-- ==== Proof.Fold.lean ====
/-
  The idealized kernel's result array, read back through the program.

  The program is nine stretches: three of host operations (the edge lists with their self loops, the degrees, the
  inverse square roots, the normalisation), the first dense product, seventeen host operations (gather the sources'
  rows, scale by the normalisation, accumulate at the targets; lay the first bias out as a row), the bias-and-maximum
  region, the second dense product, the same seventeen host operations for the second layer, and the last bias region.
  At each boundary only a few arrays matter: the two endpoint lists, the normalisation, the arguments still to be read
  and the one node table in flight. Each lemma below says what ONE of them holds at ONE boundary, as a term of the
  arguments' launch contents; a host stretch is read by computing its operations, a region by the value its output
  array ends with (taken here as the four hypotheses `DenseValue` / `BiasReluValue` / `BiasValue`, one per region:
  a dense product of the two entry arrays; the entry table plus the bias row, with and without the positive part).
  The last lemma composes them: the result array ends at the two-layer graph convolution of the arguments.
-/
import proofs.«168473_j83494164234348_1_alg».proof.Proof.Gen.KernelIdeal.Frame
import proofs.«168473_j83494164234348_1_alg».proof.Proof.Spec
import Idealize.ShloMosaic.Lib.StableHlo.Run
import Idealize.ShloMosaic.Lib.Pipeline.Value

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]

/-- A region-entry valuation: what the TensorCore's buffers hold when a region is entered. -/
abbrev Entry (F : FTy → Type) := (c : Dev nD) → (b : Ref sig .tc) → Buf (Elt F) ((c : Thread nD τ).loc b)

/-- A dense-product region ends with its output array at the product of its two entry arrays. -/
def DenseValue0 (F : FTy → Type) [FloatOps F] : Prop := ∀ (V : Entry F) (c : Dev nD),
  (dat0 (F := F) V c).arrAt 2 cfg0.N = Cert.Gcn.dense (F := F) (V c main_arg0) (V c main_arg3)
def DenseValue2 (F : FTy → Type) [FloatOps F] : Prop := ∀ (V : Entry F) (c : Dev nD),
  (dat2 (F := F) V c).arrAt 2 cfg2.N = Cert.Gcn.dense (F := F) (V c main_v47) (V c main_arg5)
/-- The first bias region ends with its output array at the positive part of the entry table plus the bias row. -/
def BiasReluValue1 (F : FTy → Type) [FloatOps F] : Prop := ∀ (V : Entry F) (c : Dev nD),
  (dat1 (F := F) V c).arrAt 2 cfg1.N = Cert.Gcn.relu (F := F) (Cert.Gcn.addRow (F := F) (V c main_v45) (V c main_v46))
/-- The last bias region ends with its output array at the entry table plus the bias row. -/
def BiasValue3 (F : FTy → Type) [FloatOps F] : Prop := ∀ (V : Entry F) (c : Dev nD),
  (dat3 (F := F) V c).arrAt 2 cfg3.N = Cert.Gcn.addRow (F := F) (V c main_v61) (V c main_v62)

variable (m : (ℓ : Loc nD τ sig) → Buf (Elt F) ℓ) (ρ : Dev nD → PrngReg) (c : Dev nD)

/-! ## A bias reshaped to one row is the bias broadcast to one row -/

theorem reshape_eq_row (b : (⟨S128, .f32⟩ : BufTy).Contents (Elt F)) :
    shapeCast S1x128 b shapeCasts_S128_S1x128 = Cert.Gcn.row (F := F) b := by
  funext j
  unfold Cert.Gcn.row
  refine (shapeCast_addUnit_apply ![128] b shapeCasts_S128_S1x128 j).trans
    (broadcastInDim_apply ![1] _ b j (fun a => j a.succ) (fun a => ?_)).symm
  match a with
  | ⟨0, _⟩ => rfl

/-! ## Before the first region: the edge lists, the normalisation, the arguments -/

theorem srcs3 : W3 m ρ c (Proc.devRef .tc main_v3) = (Cert.Gcn.srcs (F := F) (m ((c : Thread nD τ).loc main_arg1))) := by
  show StableHlo.after hostOps0_2 (StableHlo.after hostOps0_1 (StableHlo.after hostOps0 (W0 m ρ c))) (Proc.devRef .tc main_v3) = _
  after_results_simp <;> rfl
theorem dsts3 : W3 m ρ c (Proc.devRef .tc main_v6) = (Cert.Gcn.dsts (F := F) (m ((c : Thread nD τ).loc main_arg1))) := by
  show StableHlo.after hostOps0_2 (StableHlo.after hostOps0_1 (StableHlo.after hostOps0 (W0 m ρ c))) (Proc.devRef .tc main_v6) = _
  after_results_simp <;> rfl
theorem norm3 : W3 m ρ c (Proc.devRef .tc main_v31) = (Cert.Gcn.norm (F := F) (Cert.Gcn.srcs (F := F) (m ((c : Thread nD τ).loc main_arg1))) (Cert.Gcn.dsts (F := F) (m ((c : Thread nD τ).loc main_arg1))) (Cert.Gcn.wts (F := F) (m ((c : Thread nD τ).loc main_arg2)))) := by
  show StableHlo.after hostOps0_2 (StableHlo.after hostOps0_1 (StableHlo.after hostOps0 (W0 m ρ c))) (Proc.devRef .tc main_v31) = _
  after_results_simp <;> rfl
theorem arg0_3 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl
theorem arg3_3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl
theorem arg4_3 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl
theorem arg5_3 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl
theorem arg6_3 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp <;> rfl

/-! ## After the first dense product -/

theorem dense4 (h0 : DenseValue0 F) : W4 m ρ c (Proc.devRef .tc main_v32) = (Cert.Gcn.dense (F := F) (m ((c : Thread nD τ).loc main_arg0)) (m ((c : Thread nD τ).loc main_arg3))) :=
  (W4_arr m ρ c 2).trans ((h0 (V3 m ρ) c).trans (by
    rw [show V3 m ρ c main_arg0 = (m ((c : Thread nD τ).loc main_arg0)) from arg0_3 m ρ c, show V3 m ρ c main_arg3 = (m ((c : Thread nD τ).loc main_arg3)) from arg3_3 m ρ c]))
theorem srcs4 : W4 m ρ c (Proc.devRef .tc main_v3) = (Cert.Gcn.srcs (F := F) (m ((c : Thread nD τ).loc main_arg1))) := (W4_of_ne m ρ c main_v3 (by decide)).trans (srcs3 m ρ c)
theorem dsts4 : W4 m ρ c (Proc.devRef .tc main_v6) = (Cert.Gcn.dsts (F := F) (m ((c : Thread nD τ).loc main_arg1))) := (W4_of_ne m ρ c main_v6 (by decide)).trans (dsts3 m ρ c)
theorem norm4 : W4 m ρ c (Proc.devRef .tc main_v31) = (Cert.Gcn.norm (F := F) (Cert.Gcn.srcs (F := F) (m ((c : Thread nD τ).loc main_arg1))) (Cert.Gcn.dsts (F := F) (m ((c : Thread nD τ).loc main_arg1))) (Cert.Gcn.wts (F := F) (m ((c : Thread nD τ).loc main_arg2)))) := (W4_of_ne m ρ c main_v31 (by decide)).trans (norm3 m ρ c)
theorem arg4_4 : W4 m ρ c (Proc.devRef .tc main_arg4) = (m ((c : Thread nD τ).loc main_arg4)) := (W4_of_ne m ρ c main_arg4 (by decide)).trans (arg4_3 m ρ c)
theorem arg5_4 : W4 m ρ c (Proc.devRef .tc main_arg5) = (m ((c : Thread nD τ).loc main_arg5)) := (W4_of_ne m ρ c main_arg5 (by decide)).trans (arg5_3 m ρ c)
theorem arg6_4 : W4 m ρ c (Proc.devRef .tc main_arg6) = (m ((c : Thread nD τ).loc main_arg6)) := (W4_of_ne m ρ c main_arg6 (by decide)).trans (arg6_3 m ρ c)

/-! ## After the first layer's message passing -/

set_option maxHeartbeats 2000000 in
theorem layer5 (h0 : DenseValue0 F) : W5 m ρ c (Proc.devRef .tc main_v45) = (Cert.Gcn.agg (F := F) (Cert.Gcn.dense (F := F) (m ((c : Thread nD τ).loc main_arg0)) (m ((c : Thread nD τ).loc main_arg3))) (Cert.Gcn.srcs (F := F) (m ((c : Thread nD τ).loc main_arg1))) (Cert.Gcn.dsts (F := F) (m ((c : Thread nD τ).loc main_arg1))) (Cert.Gcn.norm (F := F) (Cert.Gcn.srcs (F := F) (m ((c : Thread nD τ).loc main_arg1))) (Cert.Gcn.dsts (F := F) (m ((c : Thread nD τ).loc main_arg1))) (Cert.Gcn.wts (F := F) (m ((c : Thread nD τ).loc main_arg2))))) := by
  show StableHlo.after hostOps1 (W4 m ρ c) (Proc.devRef .tc main_v45) = _
  after_results_simp
  rw [dense4 m ρ c h0, srcs4 m ρ c, dsts4 m ρ c, norm4 m ρ c]
  rfl
theorem row5 : W5 m ρ c (Proc.devRef .tc main_v46) = (shapeCast S1x128 (m ((c : Thread nD τ).loc main_arg4)) shapeCasts_S128_S1x128) := by
  show StableHlo.after hostOps1 (W4 m ρ c) (Proc.devRef .tc main_v46) = _
  after_results
  rw [arg4_4 m ρ c]
  rfl
theorem srcs5 : W5 m ρ c (Proc.devRef .tc main_v3) = (Cert.Gcn.srcs (F := F) (m ((c : Thread nD τ).loc main_arg1))) := by
  show StableHlo.after hostOps1 (W4 m ρ c) (Proc.devRef .tc main_v3) = _
  after_results
  exact srcs4 m ρ c
theorem dsts5 : W5 m ρ c (Proc.devRef .tc main_v6) = (Cert.Gcn.dsts (F := F) (m ((c : Thread nD τ).loc main_arg1))) := by
  show StableHlo.after hostOps1 (W4 m ρ c) (Proc.devRef .tc main_v6) = _
  after_results
  exact dsts4 m ρ c
theorem norm5 : W5 m ρ c (Proc.devRef .tc main_v31) = (Cert.Gcn.norm (F := F) (Cert.Gcn.srcs (F := F) (m ((c : Thread nD τ).loc main_arg1))) (Cert.Gcn.dsts (F := F) (m ((c : Thread nD τ).loc main_arg1))) (Cert.Gcn.wts (F := F) (m ((c : Thread nD τ).loc main_arg2)))) := by
  show StableHlo.after hostOps1 (W4 m ρ c) (Proc.devRef .tc main_v31) = _
  after_results
  exact norm4 m ρ c
theorem arg5_5 : W5 m ρ c (Proc.devRef .tc main_arg5) = (m ((c : Thread nD τ).loc main_arg5)) := by
  show StableHlo.after hostOps1 (W4 m ρ c) (Proc.devRef .tc main_arg5) = _
  after_results
  exact arg5_4 m ρ c
theorem arg6_5 : W5 m ρ c (Proc.devRef .tc main_arg6) = (m ((c : Thread nD τ).loc main_arg6)) := by
  show StableHlo.after hostOps1 (W4 m ρ c) (Proc.devRef .tc main_arg6) = _
  after_results
  exact arg6_4 m ρ c

/-! ## After the first bias region -/

theorem relu6 (h0 : DenseValue0 F) (h1 : BiasReluValue1 F) : W6 m ρ c (Proc.devRef .tc main_v47) = (Cert.Gcn.relu (F := F) (Cert.Gcn.addRow (F := F) (Cert.Gcn.agg (F := F) (Cert.Gcn.dense (F := F) (m ((c : Thread nD τ).loc main_arg0)) (m ((c : Thread nD τ).loc main_arg3))) (Cert.Gcn.srcs (F := F) (m ((c : Thread nD τ).loc main_arg1))) (Cert.Gcn.dsts (F := F) (m ((c : Thread nD τ).loc main_arg1))) (Cert.Gcn.norm (F := F) (Cert.Gcn.srcs (F := F) (m ((c : Thread nD τ).loc main_arg1))) (Cert.Gcn.dsts (F := F) (m ((c : Thread nD τ).loc main_arg1))) (Cert.Gcn.wts (F := F) (m ((c : Thread nD τ).loc main_arg2))))) (shapeCast S1x128 (m ((c : Thread nD τ).loc main_arg4)) shapeCasts_S128_S1x128))) :=
  (W6_arr m ρ c 2).trans ((h1 (V5 m ρ) c).trans (by
    rw [show V5 m ρ c main_v45 = (Cert.Gcn.agg (F := F) (Cert.Gcn.dense (F := F) (m ((c : Thread nD τ).loc main_arg0)) (m ((c : Thread nD τ).loc main_arg3))) (Cert.Gcn.srcs (F := F) (m ((c : Thread nD τ).loc main_arg1))) (Cert.Gcn.dsts (F := F) (m ((c : Thread nD τ).loc main_arg1))) (Cert.Gcn.norm (F := F) (Cert.Gcn.srcs (F := F) (m ((c : Thread nD τ).loc main_arg1))) (Cert.Gcn.dsts (F := F) (m ((c : Thread nD τ).loc main_arg1))) (Cert.Gcn.wts (F := F) (m ((c : Thread nD τ).loc main_arg2))))) from layer5 m ρ c h0, show V5 m ρ c main_v46 = (shapeCast S1x128 (m ((c : Thread nD τ).loc main_arg4)) shapeCasts_S128_S1x128) from row5 m ρ c]))
theorem srcs6 : W6 m ρ c (Proc.devRef .tc main_v3) = (Cert.Gcn.srcs (F := F) (m ((c : Thread nD τ).loc main_arg1))) := (W6_of_ne m ρ c main_v3 (by decide)).trans (srcs5 m ρ c)
theorem dsts6 : W6 m ρ c (Proc.devRef .tc main_v6) = (Cert.Gcn.dsts (F := F) (m ((c : Thread nD τ).loc main_arg1))) := (W6_of_ne m ρ c main_v6 (by decide)).trans (dsts5 m ρ c)
theorem norm6 : W6 m ρ c (Proc.devRef .tc main_v31) = (Cert.Gcn.norm (F := F) (Cert.Gcn.srcs (F := F) (m ((c : Thread nD τ).loc main_arg1))) (Cert.Gcn.dsts (F := F) (m ((c : Thread nD τ).loc main_arg1))) (Cert.Gcn.wts (F := F) (m ((c : Thread nD τ).loc main_arg2)))) := (W6_of_ne m ρ c main_v31 (by decide)).trans (norm5 m ρ c)
theorem arg5_6 : W6 m ρ c (Proc.devRef .tc main_arg5) = (m ((c : Thread nD τ).loc main_arg5)) := (W6_of_ne m ρ c main_arg5 (by decide)).trans (arg5_5 m ρ c)
theorem arg6_6 : W6 m ρ c (Proc.devRef .tc main_arg6) = (m ((c : Thread nD τ).loc main_arg6)) := (W6_of_ne m ρ c main_arg6 (by decide)).trans (arg6_5 m ρ c)

/-! ## After the second dense product -/

theorem dense7 (h0 : DenseValue0 F) (h1 : BiasReluValue1 F) (h2 : DenseValue2 F) : W7 m ρ c (Proc.devRef .tc main_v48) = (Cert.Gcn.dense (F := F) (Cert.Gcn.relu (F := F) (Cert.Gcn.addRow (F := F) (Cert.Gcn.agg (F := F) (Cert.Gcn.dense (F := F) (m ((c : Thread nD τ).loc main_arg0)) (m ((c : Thread nD τ).loc main_arg3))) (Cert.Gcn.srcs (F := F) (m ((c : Thread nD τ).loc main_arg1))) (Cert.Gcn.dsts (F := F) (m ((c : Thread nD τ).loc main_arg1))) (Cert.Gcn.norm (F := F) (Cert.Gcn.srcs (F := F) (m ((c : Thread nD τ).loc main_arg1))) (Cert.Gcn.dsts (F := F) (m ((c : Thread nD τ).loc main_arg1))) (Cert.Gcn.wts (F := F) (m ((c : Thread nD τ).loc main_arg2))))) (shapeCast S1x128 (m ((c : Thread nD τ).loc main_arg4)) shapeCasts_S128_S1x128))) (m ((c : Thread nD τ).loc main_arg5))) :=
  (W7_arr m ρ c 2).trans ((h2 (V6 m ρ) c).trans (by
    rw [show V6 m ρ c main_v47 = (Cert.Gcn.relu (F := F) (Cert.Gcn.addRow (F := F) (Cert.Gcn.agg (F := F) (Cert.Gcn.dense (F := F) (m ((c : Thread nD τ).loc main_arg0)) (m ((c : Thread nD τ).loc main_arg3))) (Cert.Gcn.srcs (F := F) (m ((c : Thread nD τ).loc main_arg1))) (Cert.Gcn.dsts (F := F) (m ((c : Thread nD τ).loc main_arg1))) (Cert.Gcn.norm (F := F) (Cert.Gcn.srcs (F := F) (m ((c : Thread nD τ).loc main_arg1))) (Cert.Gcn.dsts (F := F) (m ((c : Thread nD τ).loc main_arg1))) (Cert.Gcn.wts (F := F) (m ((c : Thread nD τ).loc main_arg2))))) (shapeCast S1x128 (m ((c : Thread nD τ).loc main_arg4)) shapeCasts_S128_S1x128))) from relu6 m ρ c h0 h1, show V6 m ρ c main_arg5 = (m ((c : Thread nD τ).loc main_arg5)) from arg5_6 m ρ c]))
theorem srcs7 : W7 m ρ c (Proc.devRef .tc main_v3) = (Cert.Gcn.srcs (F := F) (m ((c : Thread nD τ).loc main_arg1))) := (W7_of_ne m ρ c main_v3 (by decide)).trans (srcs6 m ρ c)
theorem dsts7 : W7 m ρ c (Proc.devRef .tc main_v6) = (Cert.Gcn.dsts (F := F) (m ((c : Thread nD τ).loc main_arg1))) := (W7_of_ne m ρ c main_v6 (by decide)).trans (dsts6 m ρ c)
theorem norm7 : W7 m ρ c (Proc.devRef .tc main_v31) = (Cert.Gcn.norm (F := F) (Cert.Gcn.srcs (F := F) (m ((c : Thread nD τ).loc main_arg1))) (Cert.Gcn.dsts (F := F) (m ((c : Thread nD τ).loc main_arg1))) (Cert.Gcn.wts (F := F) (m ((c : Thread nD τ).loc main_arg2)))) := (W7_of_ne m ρ c main_v31 (by decide)).trans (norm6 m ρ c)
theorem arg6_7 : W7 m ρ c (Proc.devRef .tc main_arg6) = (m ((c : Thread nD τ).loc main_arg6)) := (W7_of_ne m ρ c main_arg6 (by decide)).trans (arg6_6 m ρ c)

/-! ## After the second layer's message passing -/

set_option maxHeartbeats 2000000 in
theorem layer8 (h0 : DenseValue0 F) (h1 : BiasReluValue1 F) (h2 : DenseValue2 F) : W8 m ρ c (Proc.devRef .tc main_v61) = (Cert.Gcn.agg (F := F) (Cert.Gcn.dense (F := F) (Cert.Gcn.relu (F := F) (Cert.Gcn.addRow (F := F) (Cert.Gcn.agg (F := F) (Cert.Gcn.dense (F := F) (m ((c : Thread nD τ).loc main_arg0)) (m ((c : Thread nD τ).loc main_arg3))) (Cert.Gcn.srcs (F := F) (m ((c : Thread nD τ).loc main_arg1))) (Cert.Gcn.dsts (F := F) (m ((c : Thread nD τ).loc main_arg1))) (Cert.Gcn.norm (F := F) (Cert.Gcn.srcs (F := F) (m ((c : Thread nD τ).loc main_arg1))) (Cert.Gcn.dsts (F := F) (m ((c : Thread nD τ).loc main_arg1))) (Cert.Gcn.wts (F := F) (m ((c : Thread nD τ).loc main_arg2))))) (shapeCast S1x128 (m ((c : Thread nD τ).loc main_arg4)) shapeCasts_S128_S1x128))) (m ((c : Thread nD τ).loc main_arg5))) (Cert.Gcn.srcs (F := F) (m ((c : Thread nD τ).loc main_arg1))) (Cert.Gcn.dsts (F := F) (m ((c : Thread nD τ).loc main_arg1))) (Cert.Gcn.norm (F := F) (Cert.Gcn.srcs (F := F) (m ((c : Thread nD τ).loc main_arg1))) (Cert.Gcn.dsts (F := F) (m ((c : Thread nD τ).loc main_arg1))) (Cert.Gcn.wts (F := F) (m ((c : Thread nD τ).loc main_arg2))))) := by
  show StableHlo.after hostOps3 (W7 m ρ c) (Proc.devRef .tc main_v61) = _
  after_results_simp
  rw [dense7 m ρ c h0 h1 h2, srcs7 m ρ c, dsts7 m ρ c, norm7 m ρ c]
  rfl
theorem row8 : W8 m ρ c (Proc.devRef .tc main_v62) = (shapeCast S1x128 (m ((c : Thread nD τ).loc main_arg6)) shapeCasts_S128_S1x128) := by
  show StableHlo.after hostOps3 (W7 m ρ c) (Proc.devRef .tc main_v62) = _
  after_results
  rw [arg6_7 m ρ c]
  rfl

/-! ## The result array -/

/-- The result array ends at the two-layer graph convolution of the seven arguments' launch contents. -/
theorem result (h0 : DenseValue0 F) (h1 : BiasReluValue1 F) (h2 : DenseValue2 F) (h3 : BiasValue3 F) :
    W9 m ρ c (Proc.devRef .tc main_v63) = Cert.Gcn.gcn (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W9_arr m ρ c 2).trans ((h3 (V8 m ρ) c).trans ?_)
  rw [show V8 m ρ c main_v61 = (Cert.Gcn.agg (F := F) (Cert.Gcn.dense (F := F) (Cert.Gcn.relu (F := F) (Cert.Gcn.addRow (F := F) (Cert.Gcn.agg (F := F) (Cert.Gcn.dense (F := F) (m ((c : Thread nD τ).loc main_arg0)) (m ((c : Thread nD τ).loc main_arg3))) (Cert.Gcn.srcs (F := F) (m ((c : Thread nD τ).loc main_arg1))) (Cert.Gcn.dsts (F := F) (m ((c : Thread nD τ).loc main_arg1))) (Cert.Gcn.norm (F := F) (Cert.Gcn.srcs (F := F) (m ((c : Thread nD τ).loc main_arg1))) (Cert.Gcn.dsts (F := F) (m ((c : Thread nD τ).loc main_arg1))) (Cert.Gcn.wts (F := F) (m ((c : Thread nD τ).loc main_arg2))))) (shapeCast S1x128 (m ((c : Thread nD τ).loc main_arg4)) shapeCasts_S128_S1x128))) (m ((c : Thread nD τ).loc main_arg5))) (Cert.Gcn.srcs (F := F) (m ((c : Thread nD τ).loc main_arg1))) (Cert.Gcn.dsts (F := F) (m ((c : Thread nD τ).loc main_arg1))) (Cert.Gcn.norm (F := F) (Cert.Gcn.srcs (F := F) (m ((c : Thread nD τ).loc main_arg1))) (Cert.Gcn.dsts (F := F) (m ((c : Thread nD τ).loc main_arg1))) (Cert.Gcn.wts (F := F) (m ((c : Thread nD τ).loc main_arg2))))) from layer8 m ρ c h0 h1 h2, show V8 m ρ c main_v62 = (shapeCast S1x128 (m ((c : Thread nD τ).loc main_arg6)) shapeCasts_S128_S1x128) from row8 m ρ c,
    reshape_eq_row, reshape_eq_row]
  rfl

end Cert.KernelIdeal.Fold

end
-- ==== Proof.RefValue.lean ====
/-
  The reference program's result is the two-layer graph convolution of its arguments.

  The reference computes the edge lists, the degrees and the normalisation twice (once per layer) and the dense
  products, the bias rows and the positive part with host operations; its result, as one term of the seven argument
  arrays, is the composition `Cert.Gcn.gcn` read with each name opened: the two terms are the same text.
-/
import proofs.«168473_j83494164234348_1_alg».proof.Proof.Gen.ReferenceIdeal.Run
import proofs.«168473_j83494164234348_1_alg».proof.Proof.Spec

noncomputable section

namespace Cert.ReferenceIdeal.RefValue

open Cert.ReferenceIdeal Cert.ReferenceIdeal.Gen Cert.ReferenceIdeal.Value
open Idealize.ShloMosaic Idealize.ShloMosaic.TcCoe Idealize.SL.Sem

variable {F : FTy → Type} [FloatOps F]

set_option maxRecDepth 8192 in
set_option maxHeartbeats 400000 in
/-- The run's result term is `gcn` of the launch contents of the seven arguments. -/
theorem result_eq (m : (ℓ : Loc nD τ sig) → Buf (Elt F) ℓ) (c : Dev nD) :
    res_main_v89 (F := F) m c
      = Cert.Gcn.gcn (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold res_main_v89 Cert.Gcn.gcn Cert.Gcn.addRow Cert.Gcn.spread Cert.Gcn.row Cert.Gcn.relu Cert.Gcn.dense
    Cert.Gcn.agg Cert.Gcn.norm Cert.Gcn.dis Cert.Gcn.deg Cert.Gcn.wrap Cert.Gcn.wts Cert.Gcn.srcs Cert.Gcn.dsts
  rfl

end Cert.ReferenceIdeal.RefValue

end
-- ==== Proof.Dense0.lean ====
import proofs.«168473_j83494164234348_1_alg».proof.Proof.Spec
import proofs.«168473_j83494164234348_1_alg».proof.Proof.Gen.KernelIdeal.Frame
import proofs.«168473_j83494164234348_1_alg».proof.Proof.Gen.ReferenceIdeal.Read
import Idealize.ShloMosaic.Lib.Pipeline.Value
import Idealize.ShloMosaic.Lib.ValueIdx
import Idealize.ShloMosaic.PureOps.Ideal.Laws

/-!
  The matrix-product region 0: what its output array holds after the run.

  The region runs on 10 grid points. At point `t` the body reads rows `5000·t … 5000·t + 4999` of the 50000 × 128
  left array and the whole 128 × 128 right array, and writes the same rows of the 50000 × 128 result. At the exact
  extended reals the body's payload at entry (p, q) of the block is `Σ_k x(p, k) · w(k, q)`, which is entry
  (5000·t + p, q) of the dense product of the two arrays; the ten blocks tile the result, so the result is the dense
  product.
-/

set_option maxRecDepth 16384

noncomputable section

namespace Cert.KernelIdeal.Dense0

open Idealize.ShloMosaic Idealize.ShloMosaic.TcCoe Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-! ## The block product at an entry -/

/-- Axis 0 of the left operand's index is the output row. -/
theorem lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Axis 1 of the left operand's index is the contracted index. -/
theorem lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- Axis 0 of the right operand's index is the contracted index. -/
theorem rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- Axis 1 of the right operand's index is the output column. -/
theorem rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (row of `j`, `k`) of the left block. -/
abbrev lrow (j : S5000x128.Idx) (k : Fin 128) : S5000x128.Idx := fun a => match a with
  | ⟨0, _⟩ => ⟨(j 0).val, (j 0).isLt⟩
  | ⟨1, _⟩ => ⟨k.val, k.isLt⟩
/-- Entry (`k`, column of `j`) of the right matrix. -/
abbrev rcol (j : S5000x128.Idx) (k : Fin 128) : S128x128.Idx := fun a => match a with
  | ⟨0, _⟩ => ⟨k.val, k.isLt⟩
  | ⟨1, _⟩ => ⟨(j 1).val, (j 1).isLt⟩

/-- The body's payload at entry `j` of the block: the sum over `k` of left (row, k) times right (k, column). The
    format changes are the identity and the accumulator is zero. -/
theorem pay_apply (x : Vec Ideal S5000x128 .f32) (w : Vec Ideal S128x128 .f32) (j : S5000x128.Idx) :
    k0_pay1 (F := Ideal) x w j = ∑ k : Fin 128, x (lrow j k) * w (rcol j k) := by
  unfold k0_pay1
  show FloatOps.matmul dot_S5000x128_S128x128_S5000x128_1_0_0_1_n_n none (truncf (F := Ideal) .bf16 x bitsLt_bf16_f32) (truncf (F := Ideal) .bf16 w bitsLt_bf16_f32) (constant (F := Ideal) S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lrow j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = rcol j k := funext fun a => Fin.ext (by
    match a with
    | ⟨0, _⟩ => exact (rhs_0 _ _).trans hk
    | ⟨1, _⟩ => exact rhs_1 _ _)
  show x (dot_S5000x128_S128x128_S5000x128_1_0_0_1_n_n.lhsIdx j ((ValueIdx.contrEquiv1 dot_S5000x128_S128x128_S5000x128_1_0_0_1_n_n 128 rfl rfl).symm k)) * w (dot_S5000x128_S128x128_S5000x128_1_0_0_1_n_n.rhsIdx j ((ValueIdx.contrEquiv1 dot_S5000x128_S128x128_S5000x128_1_0_0_1_n_n 128 rfl rfl).symm k)) = _
  rw [el, er]

/-! ## From the blocks to the array -/

variable (V : (c : Dev nD) → (b : Ref sig .tc) → Buf (Elt Ideal) ((c : Thread nD τ).loc b))

/-- The dense product of the two arrays the region reads. -/
abbrev G (c : Dev nD) : S50000x128.Idx → Elt Ideal .f32 :=
  Cert.Gcn.dense (F := Ideal) (V c main_arg0) (V c main_arg3)

/-- The index maps over the grid: the left window's block row is the output's, every block column is 0, the right
    window stays at block (0, 0), and the output's block row is at most 9. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every block row 0 … 9 is some point's. -/
theorem idx_onto : ∀ q : Fin 10, ∃ t : Fin cfg0.N, win0_2.index t = ![q.val, 0] :=
  (by decide +kernel : ∀ q : Fin 10, ∃ t : Fin grid0.N, win0_2.index t = ![q.val, 0])

/-- What point `t` writes back is block `t` of the dense product. -/
theorem flushed_eq (c : Dev nD) (t : Fin cfg0.N) :
    (dat0 (F := Ideal) V c).flushed 2 t = ((cfg0.win 2).blk t).view.read (Elt Ideal) (G V c) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  refine ((pay_apply (iblk0 V c 0 t) (iblk0 V c 1 t) j).trans ?_).trans
    (Cert.ReferenceIdeal.Read.val_main_v32_apply (V c main_arg0) (V c main_arg3) (((cfg0.win 2).blk t).view.emb j)).symm
  refine Finset.sum_congr rfl fun k _ => ?_
  have hj0 : (j 0).val < 5000 := (j 0).isLt
  have hj1 : (j 1).val < 128 := (j 1).isLt
  have hx : iblk0 V c 0 t (lrow j k) = V c main_arg0 (Cert.ReferenceIdeal.Read.lidx_main_v32 (((cfg0.win 2).blk t).view.emb j) k) := by
    show V c main_arg0 (((cfg0.win 0).blk t).view.emb (lrow j k)) = _
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : iblk0 V c 1 t (rcol j k) = V c main_arg3 (Cert.ReferenceIdeal.Read.ridx_main_v32 (((cfg0.win 2).blk t).view.emb j) k) := by
    show V c main_arg3 (((cfg0.win 1).blk t).view.emb (rcol j k)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hx, hw]

/-- An index of the result is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row `r` of the result lies in the block of the point whose block row is `r / 5000`: the blocks cover the result. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the run is the dense product of the two arrays the region reads. -/
theorem arr (c : Dev nD) : (dat0 (F := Ideal) V c).arrAt 2 cfg0.N = Cert.Gcn.dense (F := Ideal) (V c main_arg0) (V c main_arg3) :=
  (dat0 (F := Ideal) V c).arrAt_eq_of_cover 2 (G V c) (fun t _ => flushed_eq V c t) cover

end Cert.KernelIdeal.Dense0

end
-- ==== Proof.BiasRelu1.lean ====
/-
  The first bias layer and its positive part: what the array of the second pipelined region holds after its run.

  The region visits 10 points; point `t` reads rows 5000·t … 5000·t + 4999 of a 50000 × 128 node table and the
  one bias row, and writes the same rows of the result. Entry (p, q) of a point's result is the larger of zero and
  the table's entry (p, q) plus the row's entry q; the ten row ranges tile the table, so the result is the positive
  part of the table with the row added to every node's row.
-/
import proofs.«168473_j83494164234348_1_alg».proof.Proof.Spec
import proofs.«168473_j83494164234348_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.BiasRelu1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The two sides at an entry -/

/-- The zero offsets of a whole-block access, as a constant function. -/
theorem hz : (![0, 0] : Fin 2 → Nat) = fun _ => 0 := funext fun a => by fin_cases a <;> rfl

/-- The column of a table entry as an entry of the one-row bias. -/
abbrev colOf {n : Nat} (j : (⟨2, ![n, 128]⟩ : Shape).Idx) : S1x128.Idx :=
  ix2 (0 : Fin 1) (⟨(j 1).val, (j 1).isLt⟩ : Fin 128)

/-- The value of the all-zero word: the constant both programs take the maximum against. -/
abbrev zero : Ideal .f32 := FloatOps.ofBits .f32 0x00000000#32

set_option maxHeartbeats 400000 in
/-- The body's result at an entry of a block: the larger of the zero word's value and the block's entry plus the
    bias row's entry in the same column. -/
theorem pay_apply (x : Vec Ideal S5000x128 .f32) (r : Vec Ideal S1x128 .f32) (j : S5000x128.Idx) :
    k1_pay1 (F := Ideal) x r j = max (x j + r (colOf j)) (zero) := by
  obtain ⟨p, q, rfl⟩ : ∃ (p : Fin 5000) (q : Fin 128), j = ix2 p q := ⟨j 0, j 1, eq_ix2 j⟩
  unfold k1_pay1
  simp only [shapeCast_self]
  rw [maximumf_apply, addf_apply, broadcastTo_1b_ab_apply, broadcast_apply]

set_option maxHeartbeats 400000 in
/-- The reference's result at an entry: the table's entry plus the bias row's entry in the same column. -/
theorem addRow_apply (x : Cert.Gcn.Nodes Ideal) (r : (⟨Cert.ReferenceIdeal.S1x128, .f32⟩ : BufTy).Contents (Elt Ideal))
    (i : Cert.ReferenceIdeal.S50000x128.Idx) :
    Cert.Gcn.addRow (F := Ideal) x r i = x i + r (colOf i) := by
  unfold Cert.Gcn.addRow Cert.Gcn.spread
  rw [addf_apply]
  refine congrArg (x i + ·) ?_
  refine broadcastInDim_apply _ _ r i (colOf i) fun a => ?_
  match a with
  | ⟨0, _⟩ => rfl
  | ⟨1, _⟩ => rfl

set_option maxHeartbeats 400000 in
/-- The reference's positive part at an entry: the larger of the entry and the zero word's value. -/
theorem relu_apply (y : Cert.Gcn.Nodes Ideal) (i : Cert.ReferenceIdeal.S50000x128.Idx) :
    Cert.Gcn.relu (F := Ideal) y i = max (y i) zero := by
  unfold Cert.Gcn.relu
  rw [maximumf_apply]
  refine congrArg (max (y i)) ?_
  exact broadcastInDim_apply _ _ (constant (F := Ideal) Cert.ReferenceIdeal.S_ .f32 0x00000000#32) i (fun a => a.elim0) (fun a => a.elim0)

/-! ## The blocks of a point -/

/-- The index maps, decided over the 10 points: the table's block and the result's block are the same row range,
    the bias row's block is the whole row, and the row range is one of the ten. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every one of the ten row ranges is some point's. -/
theorem idx_onto : ∀ q : Fin 10, ∃ t : Fin cfg1.N, win1_2.index t = ![q.val, 0] :=
  (by decide +kernel : ∀ q : Fin 10, ∃ t : Fin grid1.N, win1_2.index t = ![q.val, 0])

variable (V : (c : Dev nD) → (b : Ref sig .tc) → Buf (Elt Ideal) ((c : Thread nD τ).loc b))

set_option maxHeartbeats 400000 in
/-- The table's block at a point, at an entry: the table at the entry of the result the point writes there. -/
theorem blk_table (c : Dev nD) (t : Fin cfg1.N) (y : S5000x128.Idx) :
    iblk1 (F := Ideal) V c 0 t y = V c main_v45 (((cfg1.win 2).blk t).view.emb y) := by
  show V c main_v45 (((cfg1.win 0).blk t).view.emb y) = V c main_v45 (((cfg1.win 2).blk t).view.emb y)
  obtain ⟨e0, e1, e2, e3, e4, e5⟩ := idx_facts t
  refine congrArg (V c main_v45) (funext fun a => Fin.ext ?_)
  match a with
  | ⟨0, _⟩ =>
    show win1_0.index t (0 : Fin 2) * 5000 + 1 * (y 0).val = win1_2.index t (0 : Fin 2) * 5000 + 1 * (y 0).val
    omega
  | ⟨1, _⟩ =>
    show win1_0.index t (1 : Fin 2) * 128 + 1 * (y 1).val = win1_2.index t (1 : Fin 2) * 128 + 1 * (y 1).val
    omega

set_option maxHeartbeats 400000 in
/-- The bias row's block at a point is the row. -/
theorem blk_row (c : Dev nD) (t : Fin cfg1.N) (k : S1x128.Idx) :
    iblk1 (F := Ideal) V c 1 t k = V c main_v46 k := by
  show V c main_v46 (((cfg1.win 1).blk t).view.emb k) = V c main_v46 k
  obtain ⟨e0, e1, e2, e3, e4, e5⟩ := idx_facts t
  refine congrArg (V c main_v46) (funext fun a => Fin.ext ?_)
  match a with
  | ⟨0, _⟩ =>
    show win1_1.index t (0 : Fin 2) * 1 + 1 * (k 0).val = (k 0).val
    omega
  | ⟨1, _⟩ =>
    show win1_1.index t (1 : Fin 2) * 128 + 1 * (k 1).val = (k 1).val
    omega

set_option maxHeartbeats 400000 in
/-- An entry of a point's block of the result lies in the column it has inside the block. -/
theorem col_emb (t : Fin cfg1.N) (y : S5000x128.Idx) :
    colOf (((cfg1.win 2).blk t).view.emb y : S50000x128.Idx) = colOf y := by
  obtain ⟨e0, e1, e2, e3, e4, e5⟩ := idx_facts t
  refine funext fun a => Fin.ext ?_
  match a with
  | ⟨0, _⟩ => rfl
  | ⟨1, _⟩ =>
    show win1_2.index t (1 : Fin 2) * 128 + 1 * (y 1).val = (y 1).val
    omega

/-! ## What a point writes back -/

set_option maxHeartbeats 400000 in
/-- Point `t` writes back block `t` of the positive part of the table with the bias row added to every node's row. -/
theorem flushed_eq (c : Dev nD) (t : Fin cfg1.N) :
    (dat1 (F := Ideal) V c).flushed 2 t
      = ((cfg1.win 2).blk t).view.read (Elt Ideal) (Cert.Gcn.relu (F := Ideal) (Cert.Gcn.addRow (F := Ideal) (V c main_v45) (V c main_v46))) := by
  show (cfg1.win 2).cut (grid1.coords t) ((dat1 (F := Ideal) V c).after 2 t) = _
  rw [after1_2]
  unfold out1_2
  rw [View.canon_unit_zero hz]
  simp only [View.ld_unit_zero (S := S5000x128) hz, View.ld_unit_zero (S := S1x128) hz]
  funext j
  rw [View.read_apply]
  refine (pay_apply (iblk1 (F := Ideal) V c 0 t) (iblk1 (F := Ideal) V c 1 t) j).trans ?_
  rw [blk_table V c t j, blk_row V c t (colOf j),
    relu_apply (Cert.Gcn.addRow (F := Ideal) (V c main_v45) (V c main_v46)) (((cfg1.win 2).blk t).view.emb j),
    addRow_apply (V c main_v45) (V c main_v46) (((cfg1.win 2).blk t).view.emb j), col_emb t j]
  exact (cast_eq _ _).symm

/-! ## The array after the run -/

/-- An entry of the result is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

set_option maxHeartbeats 400000 in
/-- Every entry of the result is in some point's block: row `r` in the block of the point whose row range is the
    `r / 5000`-th. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- THE RESULT of the region: the positive part of the node table with the bias row added to every node's row. -/
theorem arr (c : Dev nD) :
    (dat1 (F := Ideal) V c).arrAt 2 cfg1.N = Cert.Gcn.relu (F := Ideal) (Cert.Gcn.addRow (F := Ideal) (V c main_v45) (V c main_v46)) :=
  (dat1 (F := Ideal) V c).arrAt_eq_of_cover 2 (Cert.Gcn.relu (F := Ideal) (Cert.Gcn.addRow (F := Ideal) (V c main_v45) (V c main_v46)))
    (fun t _ => flushed_eq V c t) cover

end Cert.KernelIdeal.BiasRelu1

end
-- ==== Proof.Dense2.lean ====
import proofs.«168473_j83494164234348_1_alg».proof.Proof.Spec
import proofs.«168473_j83494164234348_1_alg».proof.Proof.Gen.KernelIdeal.Frame
import proofs.«168473_j83494164234348_1_alg».proof.Proof.Gen.ReferenceIdeal.Read
import Idealize.ShloMosaic.Lib.Pipeline.Value
import Idealize.ShloMosaic.Lib.ValueIdx
import Idealize.ShloMosaic.PureOps.Ideal.Laws

/-!
  The matrix-product region 2: what its output array holds after the run.

  The region runs on 10 grid points. At point `t` the body reads rows `5000·t … 5000·t + 4999` of the 50000 × 128
  left array and the whole 128 × 128 right array, and writes the same rows of the 50000 × 128 result. At the exact
  extended reals the body's payload at entry (p, q) of the block is `Σ_k x(p, k) · w(k, q)`, which is entry
  (5000·t + p, q) of the dense product of the two arrays; the ten blocks tile the result, so the result is the dense
  product.
-/

set_option maxRecDepth 16384

noncomputable section

namespace Cert.KernelIdeal.Dense2

open Idealize.ShloMosaic Idealize.ShloMosaic.TcCoe Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-! ## The block product at an entry -/

/-- Axis 0 of the left operand's index is the output row. -/
theorem lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Axis 1 of the left operand's index is the contracted index. -/
theorem lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- Axis 0 of the right operand's index is the contracted index. -/
theorem rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- Axis 1 of the right operand's index is the output column. -/
theorem rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (row of `j`, `k`) of the left block. -/
abbrev lrow (j : S5000x128.Idx) (k : Fin 128) : S5000x128.Idx := fun a => match a with
  | ⟨0, _⟩ => ⟨(j 0).val, (j 0).isLt⟩
  | ⟨1, _⟩ => ⟨k.val, k.isLt⟩
/-- Entry (`k`, column of `j`) of the right matrix. -/
abbrev rcol (j : S5000x128.Idx) (k : Fin 128) : S128x128.Idx := fun a => match a with
  | ⟨0, _⟩ => ⟨k.val, k.isLt⟩
  | ⟨1, _⟩ => ⟨(j 1).val, (j 1).isLt⟩

/-- The body's payload at entry `j` of the block: the sum over `k` of left (row, k) times right (k, column). The
    format changes are the identity and the accumulator is zero. -/
theorem pay_apply (x : Vec Ideal S5000x128 .f32) (w : Vec Ideal S128x128 .f32) (j : S5000x128.Idx) :
    k2_pay1 (F := Ideal) x w j = ∑ k : Fin 128, x (lrow j k) * w (rcol j k) := by
  unfold k2_pay1
  rw [shapeCast_self x shapeCasts_S5000x128_S5000x128]
  show FloatOps.matmul dot_S5000x128_S128x128_S5000x128_1_0_0_1_n_n none (truncf (F := Ideal) .bf16 x bitsLt_bf16_f32) (truncf (F := Ideal) .bf16 w bitsLt_bf16_f32) (constant (F := Ideal) S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lrow j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = rcol j k := funext fun a => Fin.ext (by
    match a with
    | ⟨0, _⟩ => exact (rhs_0 _ _).trans hk
    | ⟨1, _⟩ => exact rhs_1 _ _)
  show x (dot_S5000x128_S128x128_S5000x128_1_0_0_1_n_n.lhsIdx j ((ValueIdx.contrEquiv1 dot_S5000x128_S128x128_S5000x128_1_0_0_1_n_n 128 rfl rfl).symm k)) * w (dot_S5000x128_S128x128_S5000x128_1_0_0_1_n_n.rhsIdx j ((ValueIdx.contrEquiv1 dot_S5000x128_S128x128_S5000x128_1_0_0_1_n_n 128 rfl rfl).symm k)) = _
  rw [el, er]

/-! ## From the blocks to the array -/

variable (V : (c : Dev nD) → (b : Ref sig .tc) → Buf (Elt Ideal) ((c : Thread nD τ).loc b))

/-- The dense product of the two arrays the region reads. -/
abbrev G (c : Dev nD) : S50000x128.Idx → Elt Ideal .f32 :=
  Cert.Gcn.dense (F := Ideal) (V c main_v47) (V c main_arg5)

/-- The index maps over the grid: the left window's block row is the output's, every block column is 0, the right
    window stays at block (0, 0), and the output's block row is at most 9. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every block row 0 … 9 is some point's. -/
theorem idx_onto : ∀ q : Fin 10, ∃ t : Fin cfg2.N, win2_2.index t = ![q.val, 0] :=
  (by decide +kernel : ∀ q : Fin 10, ∃ t : Fin grid2.N, win2_2.index t = ![q.val, 0])

/-- What point `t` writes back is block `t` of the dense product. -/
theorem flushed_eq (c : Dev nD) (t : Fin cfg2.N) :
    (dat2 (F := Ideal) V c).flushed 2 t = ((cfg2.win 2).blk t).view.read (Elt Ideal) (G V c) := by
  show (cfg2.win 2).cut (grid2.coords t) ((dat2 (F := Ideal) V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  refine ((pay_apply (iblk2 V c 0 t) (iblk2 V c 1 t) j).trans ?_).trans
    (Cert.ReferenceIdeal.Read.val_main_v32_apply (V c main_v47) (V c main_arg5) (((cfg2.win 2).blk t).view.emb j)).symm
  refine Finset.sum_congr rfl fun k _ => ?_
  have hj0 : (j 0).val < 5000 := (j 0).isLt
  have hj1 : (j 1).val < 128 := (j 1).isLt
  have hx : iblk2 V c 0 t (lrow j k) = V c main_v47 (Cert.ReferenceIdeal.Read.lidx_main_v32 (((cfg2.win 2).blk t).view.emb j) k) := by
    show V c main_v47 (((cfg2.win 0).blk t).view.emb (lrow j k)) = _
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hw : iblk2 V c 1 t (rcol j k) = V c main_arg5 (Cert.ReferenceIdeal.Read.ridx_main_v32 (((cfg2.win 2).blk t).view.emb j) k) := by
    show V c main_arg5 (((cfg2.win 1).blk t).view.emb (rcol j k)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [hx, hw]

/-- An index of the result is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Row `r` of the result lies in the block of the point whose block row is `r / 5000`: the blocks cover the result. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The result array after the run is the dense product of the two arrays the region reads. -/
theorem arr (c : Dev nD) : (dat2 (F := Ideal) V c).arrAt 2 cfg2.N = Cert.Gcn.dense (F := Ideal) (V c main_v47) (V c main_arg5) :=
  (dat2 (F := Ideal) V c).arrAt_eq_of_cover 2 (G V c) (fun t _ => flushed_eq V c t) cover

end Cert.KernelIdeal.Dense2

end
-- ==== Proof.Bias3.lean ====
/-
  The second bias layer: what the output array of the fourth pipelined region holds after its run.

  The region visits 10 points; point `t` reads rows 5000·t … 5000·t + 4999 of a 50000 × 128 node table and the
  one bias row, and writes the same rows of the result. Entry (p, q) of a point's result is the table's entry (p, q)
  plus the row's entry q; the ten row ranges tile the table, so the result is the table with the row added to every
  node's row.
-/
import proofs.«168473_j83494164234348_1_alg».proof.Proof.Spec
import proofs.«168473_j83494164234348_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Bias3

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The two sides at an entry -/

/-- The zero offsets of a whole-block access, as a constant function. -/
theorem hz : (![0, 0] : Fin 2 → Nat) = fun _ => 0 := funext fun a => by fin_cases a <;> rfl

/-- The column of a table entry as an entry of the one-row bias. -/
abbrev colOf {n : Nat} (j : (⟨2, ![n, 128]⟩ : Shape).Idx) : S1x128.Idx :=
  ix2 (0 : Fin 1) (⟨(j 1).val, (j 1).isLt⟩ : Fin 128)

set_option maxHeartbeats 400000 in
/-- The body's result at an entry of a block: the block's entry plus the bias row's entry in the same column. -/
theorem pay_apply (x : Vec Ideal S5000x128 .f32) (r : Vec Ideal S1x128 .f32) (j : S5000x128.Idx) :
    k3_pay1 (F := Ideal) x r j = x j + r (colOf j) := by
  obtain ⟨p, q, rfl⟩ : ∃ (p : Fin 5000) (q : Fin 128), j = ix2 p q := ⟨j 0, j 1, eq_ix2 j⟩
  unfold k3_pay1
  simp only [shapeCast_self]
  rw [addf_apply, broadcastTo_1b_ab_apply]

set_option maxHeartbeats 400000 in
/-- The reference's result at an entry: the table's entry plus the bias row's entry in the same column. -/
theorem addRow_apply (x : Cert.Gcn.Nodes Ideal) (r : (⟨Cert.ReferenceIdeal.S1x128, .f32⟩ : BufTy).Contents (Elt Ideal))
    (i : Cert.ReferenceIdeal.S50000x128.Idx) :
    Cert.Gcn.addRow (F := Ideal) x r i = x i + r (colOf i) := by
  unfold Cert.Gcn.addRow Cert.Gcn.spread
  rw [addf_apply]
  refine congrArg (x i + ·) ?_
  refine broadcastInDim_apply _ _ r i (colOf i) fun a => ?_
  match a with
  | ⟨0, _⟩ => rfl
  | ⟨1, _⟩ => rfl

/-! ## The blocks of a point -/

/-- The index maps, decided over the 10 points: the table's block and the result's block are the same row range,
    the bias row's block is the whole row, and the row range is one of the ten. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every one of the ten row ranges is some point's. -/
theorem idx_onto : ∀ q : Fin 10, ∃ t : Fin cfg3.N, win3_2.index t = ![q.val, 0] :=
  (by decide +kernel : ∀ q : Fin 10, ∃ t : Fin grid3.N, win3_2.index t = ![q.val, 0])

variable (V : (c : Dev nD) → (b : Ref sig .tc) → Buf (Elt Ideal) ((c : Thread nD τ).loc b))

set_option maxHeartbeats 400000 in
/-- The table's block at a point, at an entry: the table at the entry of the result the point writes there. -/
theorem blk_table (c : Dev nD) (t : Fin cfg3.N) (y : S5000x128.Idx) :
    iblk3 (F := Ideal) V c 0 t y = V c main_v61 (((cfg3.win 2).blk t).view.emb y) := by
  show V c main_v61 (((cfg3.win 0).blk t).view.emb y) = V c main_v61 (((cfg3.win 2).blk t).view.emb y)
  obtain ⟨e0, e1, e2, e3, e4, e5⟩ := idx_facts t
  refine congrArg (V c main_v61) (funext fun a => Fin.ext ?_)
  match a with
  | ⟨0, _⟩ =>
    show win3_0.index t (0 : Fin 2) * 5000 + 1 * (y 0).val = win3_2.index t (0 : Fin 2) * 5000 + 1 * (y 0).val
    omega
  | ⟨1, _⟩ =>
    show win3_0.index t (1 : Fin 2) * 128 + 1 * (y 1).val = win3_2.index t (1 : Fin 2) * 128 + 1 * (y 1).val
    omega

set_option maxHeartbeats 400000 in
/-- The bias row's block at a point is the row. -/
theorem blk_row (c : Dev nD) (t : Fin cfg3.N) (k : S1x128.Idx) :
    iblk3 (F := Ideal) V c 1 t k = V c main_v62 k := by
  show V c main_v62 (((cfg3.win 1).blk t).view.emb k) = V c main_v62 k
  obtain ⟨e0, e1, e2, e3, e4, e5⟩ := idx_facts t
  refine congrArg (V c main_v62) (funext fun a => Fin.ext ?_)
  match a with
  | ⟨0, _⟩ =>
    show win3_1.index t (0 : Fin 2) * 1 + 1 * (k 0).val = (k 0).val
    omega
  | ⟨1, _⟩ =>
    show win3_1.index t (1 : Fin 2) * 128 + 1 * (k 1).val = (k 1).val
    omega

set_option maxHeartbeats 400000 in
/-- An entry of a point's block of the result lies in the column it has inside the block. -/
theorem col_emb (t : Fin cfg3.N) (y : S5000x128.Idx) :
    colOf (((cfg3.win 2).blk t).view.emb y : S50000x128.Idx) = colOf y := by
  obtain ⟨e0, e1, e2, e3, e4, e5⟩ := idx_facts t
  refine funext fun a => Fin.ext ?_
  match a with
  | ⟨0, _⟩ => rfl
  | ⟨1, _⟩ =>
    show win3_2.index t (1 : Fin 2) * 128 + 1 * (y 1).val = (y 1).val
    omega

/-! ## What a point writes back -/

set_option maxHeartbeats 400000 in
/-- Point `t` writes back block `t` of the table with the bias row added to every node's row. -/
theorem flushed_eq (c : Dev nD) (t : Fin cfg3.N) :
    (dat3 (F := Ideal) V c).flushed 2 t
      = ((cfg3.win 2).blk t).view.read (Elt Ideal) (Cert.Gcn.addRow (F := Ideal) (V c main_v61) (V c main_v62)) := by
  show (cfg3.win 2).cut (grid3.coords t) ((dat3 (F := Ideal) V c).after 2 t) = _
  rw [after3_2]
  unfold out3_2
  rw [View.canon_unit_zero hz]
  simp only [View.ld_unit_zero (S := S5000x128) hz, View.ld_unit_zero (S := S1x128) hz]
  funext j
  rw [View.read_apply]
  refine (pay_apply (iblk3 (F := Ideal) V c 0 t) (iblk3 (F := Ideal) V c 1 t) j).trans ?_
  rw [blk_table V c t j, blk_row V c t (colOf j),
    addRow_apply (V c main_v61) (V c main_v62) (((cfg3.win 2).blk t).view.emb j), col_emb t j]
  exact (cast_eq _ _).symm

/-! ## The array after the run -/

/-- An entry of the result is in point `t`'s block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

set_option maxHeartbeats 400000 in
/-- Every entry of the result is in some point's block: row `r` in the block of the point whose row range is the
    `r / 5000`-th. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-- THE RESULT of the region: the node table with the bias row added to every node's row. -/
theorem arr (c : Dev nD) :
    (dat3 (F := Ideal) V c).arrAt 2 cfg3.N = Cert.Gcn.addRow (F := Ideal) (V c main_v61) (V c main_v62) :=
  (dat3 (F := Ideal) V c).arrAt_eq_of_cover 2 (Cert.Gcn.addRow (F := Ideal) (V c main_v61) (V c main_v62))
    (fun t _ => flushed_eq V c t) cover

end Cert.KernelIdeal.Bias3

end
-- ==== Proof.lean ====
/-
  Two layers of a graph convolution on 50000 nodes and 1600000 weighted edges (plus one self loop per node), computed
  two ways.

  The kernel program forms the edge lists, the degrees and the symmetric normalisation once with host operations, and
  gives the dense work to four regions over ten blocks of 5000 nodes: a 128 × 128 product per layer (its operands
  narrowed to a shorter float format first, which changes nothing over the extended reals) and a bias row added per
  layer, the first followed by the positive part. Between the regions the host gathers each edge's source row, scales
  it by the edge's normalisation and accumulates it at the edge's target. The reference does all of it with host
  operations and forms the normalisation once per layer.

  Over the extended reals both are ONE function of the seven arguments (`Cert.Gcn.gcn`): the reference's result term
  is that composition read name by name (`RefValue.result_eq`); the kernel's result array is read back through its nine
  stretches (`Fold.result`), each region ending with its output array at a whole-array function of its entry arrays
  because every grid point writes back its block of that function and the ten blocks tile the array (`Dense0.arr`,
  `BiasRelu1.arr`, `Dense2.arr`, `Bias3.arr`). A block's row of the dense product is the same sum over the 128 shared
  features as the whole product's row; no law beyond reindexing that sum is used, so the finiteness of the inputs is
  never opened. The three frames are the programs' runs with the results dropped, and the idealization rewrote no
  operation.
-/
import proofs.«168473_j83494164234348_1_alg».proof.Defs
import proofs.«168473_j83494164234348_1_alg».proof.Proof.Gen.Kernel
import proofs.«168473_j83494164234348_1_alg».proof.Proof.Gen.Kernel.Frame
import proofs.«168473_j83494164234348_1_alg».proof.Proof.Gen.KernelIdeal
import proofs.«168473_j83494164234348_1_alg».proof.Proof.Gen.KernelIdeal.Frame
import proofs.«168473_j83494164234348_1_alg».proof.Proof.Gen.ReferenceIdeal
import proofs.«168473_j83494164234348_1_alg».proof.Proof.Gen.ReferenceIdeal.Run
import proofs.«168473_j83494164234348_1_alg».proof.Proof.Gen.Pre_finite_inputs
import proofs.«168473_j83494164234348_1_alg».proof.Proof.Spec
import proofs.«168473_j83494164234348_1_alg».proof.Proof.KernelIdealRun
import proofs.«168473_j83494164234348_1_alg».proof.Proof.Fold
import proofs.«168473_j83494164234348_1_alg».proof.Proof.RefValue
import proofs.«168473_j83494164234348_1_alg».proof.Proof.Dense0
import proofs.«168473_j83494164234348_1_alg».proof.Proof.BiasRelu1
import proofs.«168473_j83494164234348_1_alg».proof.Proof.Dense2
import proofs.«168473_j83494164234348_1_alg».proof.Proof.Bias3

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the result array at the graph convolution of arguments that agree. -/
theorem algebraic : Cert.algebraic_KernelIdeal_ReferenceIdeal := by
  intro m ρ m' ρ' _ hagree
  refine ⟨fun c => Cert.Gcn.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.result (F := Ideal) m ρ c
          (fun V c => Cert.KernelIdeal.Dense0.arr V c) (fun V c => Cert.KernelIdeal.BiasRelu1.arr V c)
          (fun V c => Cert.KernelIdeal.Dense2.arr V c) (fun V c => Cert.KernelIdeal.Bias3.arr V c)), (h c).2⟩)
      (Cert.KernelIdeal.Run.result_at_last_boundary (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
